-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32 : Shape := ⟨3, ![32, 512, 32]⟩
abbrev S32x512 : Shape := ⟨2, ![32, 512]⟩
abbrev S_ : Shape := ⟨0, ![]⟩

class Facts : Prop where
  bcast_S_S32x512x32 : S_.BroadcastsInDim S32x512x32 (![] : Fin 0 → Fin S32x512x32.rank)
  reducesTo_S32x512x32_S_d0_1_2 : S32x512x32.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S32x512x32 .f32) (main_arg1 : FVec F S32x512 .f32) (main_arg2 : FVec F S32x512 .f32) : IVec S_ 1 :=
  let main_v0 : FVec F S32x512x32 .f32 := Host.absf main_arg0
  let main_cst : FVec F S_ .f32 := constant S_ .f32 0x7F800000#32
  let main_v1 : FVec F S32x512x32 .f32 := broadcastInDim S32x512x32 ![] bcast_S_S32x512x32 main_cst
  let main_v2 : IVec S32x512x32 1 := cmpf .olt main_v0 main_v1
  let main_c : IVec S_ 1 := constantI S_ 1 1#1
  let main_v3 : IVec S_ 1 := (fun x v => Host.reduce IntOp.andi x v reducesTo_S32x512x32_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  main_v13
-- ==== Kernel.lean ====
abbrev S32x512x32 : Shape := ⟨3, ![32, 512, 32]⟩
abbrev S32x512 : Shape := ⟨2, ![32, 512]⟩
abbrev S16384x32 : Shape := ⟨2, ![16384, 32]⟩
abbrev S16384x32x512 : Shape := ⟨3, ![16384, 32, 512]⟩
abbrev S128x32 : Shape := ⟨2, ![128, 32]⟩
abbrev S128x32x512 : Shape := ⟨3, ![128, 32, 512]⟩
abbrev S128x32x1 : Shape := ⟨3, ![128, 32, 1]⟩
abbrev S1x32x512 : Shape := ⟨3, ![1, 32, 512]⟩
abbrev S32x512x32x512 : Shape := ⟨4, ![32, 512, 32, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x512x32, .f32⟩
  | .hbm, ⟨1, _⟩ => ⟨S32x512, .f32⟩
  | .hbm, ⟨2, _⟩ => ⟨S32x512, .f32⟩
  | .hbm, ⟨3, _⟩ => ⟨S16384x32, .f32⟩
  | .hbm, ⟨4, _⟩ => ⟨S16384x32x512, .f32⟩
  | .hbm, ⟨5, _⟩ => ⟨S32x512x32x512, .f32⟩
  | .local _ .vmem, ⟨0, _⟩ => ⟨S128x32, .f32⟩
  | .local _ .vmem, ⟨1, _⟩ => ⟨S128x32, .f32⟩
  | .local _ .vmem, ⟨2, _⟩ => ⟨S32x512, .f32⟩
  | .local _ .vmem, ⟨3, _⟩ => ⟨S32x512, .f32⟩
  | .local _ .vmem, ⟨4, _⟩ => ⟨S128x32x512, .f32⟩
  | .local _ .vmem, ⟨5, _⟩ => ⟨S128x32x512, .f32⟩
  | _, _ => ⟨S32x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x32_S16384x32 : S32x512x32.ShapeCasts S16384x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x512_S32x512_0_0 : ∀ a, (![0, 0] : Fin 2 → Nat) a + S32x512.size a ≤ S32x512.size a
  h_S32x512 : 0 < S32x512.numel
  shapeCasts_S128x32_S128x32x1 : S128x32.ShapeCasts S128x32x1
  shapeCasts_S32x512_S1x32x512 : S32x512.ShapeCasts S1x32x512
  broadcasts_S128x32x1_S128x32x512 : S128x32x1.Broadcasts S128x32x512
  broadcasts_S1x32x512_S128x32x512 : S1x32x512.Broadcasts S128x32x512
  inb_S128x32x512_S128x32x512_0_0_0 : ∀ a, (![0, 0, 0] : Fin 3 → Nat) a + S128x32x512.size a ≤ S128x32x512.size a
  h_S128x32x512 : 0 < S128x32x512.numel
  shapeCasts_S16384x32x512_S32x512x32x512 : S16384x32x512.ShapeCasts S32x512x32x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32.size a ≤ S16384x32.size a
  hwx0_0 : ∀ i : grid0.Coords, EltTy.bits .f32 = 32 ∨ (Rect.block (s := S16384x32) S128x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32x512.size a ≤ S16384x32x512.size a
  hwx0_3 : ∀ i : grid0.Coords, EltTy.bits .f32 = 32 ∨ (Rect.block (s := S16384x32x512) S128x32x512.size (cc0_transform_3 i) (hinb0_3 i)).WholeWords (EltTy.packing .f32)

variable [Facts₀]

abbrev win0_0 : Pipeline.Window sig grid0 :=
  Pipeline.Window.ofSpec (Memref.whole main_v0) S128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x32 : Shape := ⟨3, ![32, 512, 32]⟩
abbrev S32x512 : Shape := ⟨2, ![32, 512]⟩
abbrev S32x512x32x1 : Shape := ⟨4, ![32, 512, 32, 1]⟩
abbrev S1x1x32x512 : Shape := ⟨4, ![1, 1, 32, 512]⟩
abbrev S32x512x32x512 : Shape := ⟨4, ![32, 512, 32, 512]⟩

abbrev nBuf : Space → Nat
  | .hbm => 11
  | .vmem => 0
  | .smem => 0
  | _ => 0

abbrev bufTy : (tb : Table) → Fin (tcTables nBuf tb) → BufTy
  | .hbm, ⟨0, _⟩ => ⟨S32x512x32, .f32⟩
  | .hbm, ⟨1, _⟩ => ⟨S32x512, .f32⟩
  | .hbm, ⟨2, _⟩ => ⟨S32x512, .f32⟩
  | .hbm, ⟨3, _⟩ => ⟨S32x512x32x1, .f32⟩
  | .hbm, ⟨4, _⟩ => ⟨S1x1x32x512, .f32⟩
  | .hbm, ⟨5, _⟩ => ⟨S32x512x32x512, .f32⟩
  | .hbm, ⟨6, _⟩ => ⟨S32x512x32x512, .f32⟩
  | .hbm, ⟨7, _⟩ => ⟨S32x512x32x512, .f32⟩
  | .hbm, ⟨8, _⟩ => ⟨S1x1x32x512, .f32⟩
  | .hbm, ⟨9, _⟩ => ⟨S32x512x32x512, .f32⟩
  | .hbm, ⟨10, _⟩ => ⟨S32x512x32x512, .f32⟩
  | _, _ => ⟨S32x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S32x512x32_S32x512x32x1_0_1_2 : S32x512x32.BroadcastsInDim S32x512x32x1 (![0, 1, 2] : Fin 3 → Fin S32x512x32x1.rank)
  bcast_S32x512_S1x1x32x512_2_3 : S32x512.BroadcastsInDim S1x1x32x512 (![2, 3] : Fin 2 → Fin S1x1x32x512.rank)
  bcast_S32x512x32x1_S32x512x32x512_0_1_2_3 : S32x512x32x1.BroadcastsInDim S32x512x32x512 (![0, 1, 2, 3] : Fin 4 → Fin S32x512x32x512.rank)
  bcast_S1x1x32x512_S32x512x32x512_0_1_2_3 : S1x1x32x512.BroadcastsInDim S32x512x32x512 (![0, 1, 2, 3] : Fin 4 → Fin S32x512x32x512.rank)

variable [Facts₀]

class Facts : Prop extends Facts₀ where

variable [Facts]
-- ==== Proof.Payload.lean ====
/-
  The kernel body's arithmetic at one entry.  The body loads a 128×32 block of rows of x and the whole of w and β, views
  the x block as 128×32×1 and w, β as 1×32×512, broadcasts all three to 128×32×512, multiplies and adds.  A broadcast
  reads its operand at the coordinates it keeps (0 on the unit axes), and a view that only adds a unit axis keeps the
  row-major position, so entry (r, c, d) of what the body stores is  xblock[r, c] · w[c, d] + β[c, d],  at every float
  instance.
-/
import proofs.«101745_j20727512171029_1_alg».proof.Proof.Gen.KernelIdeal.Skeleton
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

variable {F : FTy → Type} [FloatOps F] {α : Type}

/-- A 128×32 block viewed as 128×32×1 and broadcast along a new last axis reads (r, c) at every d. -/
theorem lastAxis_apply (x : S128x32.Idx → α) (h1 : S128x32.ShapeCasts S128x32) (h2 : S128x32.ShapeCasts S128x32x1)
    (h3 : S128x32x1.Broadcasts S128x32x512) (r : Fin 128) (c : Fin 32) (d : Fin 512) :
    broadcastTo S128x32x512 (shapeCast S128x32x1 (shapeCast S128x32 x h1) h2) h3 (ix3 r c d) = x (ix2 r c) := by
  refine (broadcastTo_apply _ h3 (ix3 r c d) (ix3 r c (0 : Fin 1)) fun a => ?_).trans ?_
  · match a with
    | ⟨0, _⟩ => show r.val = if (128 : Nat) = 1 then 0 else r.val; rw [if_neg (by decide)]
    | ⟨1, _⟩ => show c.val = if (32 : Nat) = 1 then 0 else c.val; rw [if_neg (by decide)]
    | ⟨2, _⟩ => show 0 = if (1 : Nat) = 1 then 0 else d.val; rw [if_pos rfl]
  · refine (shapeCast_apply _ h2 (ix3 r c (0 : Fin 1)) (ix2 r c) ?_).trans ?_
    · rw [Shape.rowMajor_val_two, Shape.rowMajor_val_three]
      show r.val * 32 + c.val = (r.val * 32 + c.val) * 1 + 0
      omega
    · rw [shapeCast_self]

/-- A 32×512 array viewed as 1×32×512 and broadcast along a new leading axis reads (c, d) at every r. -/
theorem leadingAxis_apply (y : S32x512.Idx → α) (h1 : S32x512.ShapeCasts S1x32x512) (h2 : S1x32x512.Broadcasts S128x32x512)
    (r : Fin 128) (c : Fin 32) (d : Fin 512) :
    broadcastTo S128x32x512 (shapeCast S1x32x512 y h1) h2 (ix3 r c d) = y (ix2 c d) := by
  refine (broadcastTo_apply _ h2 (ix3 r c d) (ix3 (0 : Fin 1) c d) fun a => ?_).trans ?_
  · match a with
    | ⟨0, _⟩ => show 0 = if (1 : Nat) = 1 then 0 else r.val; rw [if_pos rfl]
    | ⟨1, _⟩ => show c.val = if (32 : Nat) = 1 then 0 else c.val; rw [if_neg (by decide)]
    | ⟨2, _⟩ => show d.val = if (512 : Nat) = 1 then 0 else d.val; rw [if_neg (by decide)]
  · refine shapeCast_apply _ h1 (ix3 (0 : Fin 1) c d) (ix2 c d) ?_
    rw [Shape.rowMajor_val_two, Shape.rowMajor_val_three]
    show c.val * 512 + d.val = (0 * 32 + c.val) * 512 + d.val
    omega

/-- Entry j = (r, c, d) of what the body stores: xblock[r, c] · w[c, d] + β[c, d]. -/
theorem stored_apply (xb : Vec F S128x32 .f32) (w β : Vec F S32x512 .f32) (j : S128x32x512.Idx) :
    k0_pay1 xb w β j = FloatOps.addf (FloatOps.mulf (xb (ix2 (j 0) (j 1))) (w (ix2 (j 1) (j 2)))) (β (ix2 (j 1) (j 2))) := by
  obtain ⟨r, c, d, rfl⟩ : ∃ (r : Fin 128) (c : Fin 32) (d : Fin 512), j = ix3 r c d := ⟨j 0, j 1, j 2, eq_ix3 j⟩
  exact congrArg₂ FloatOps.addf
    (congrArg₂ FloatOps.mulf (lastAxis_apply xb _ _ _ r c d) (leadingAxis_apply w _ _ r c d))
    (leadingAxis_apply β _ _ r c d)

end Cert.KernelIdeal.Payload

end
-- ==== Proof.Spec.lean ====
/-
  The function both programs compute, stated once over literal shapes and for every float instance:

      out[b, l, c, d] = x[b, l, c] · w[c, d] + β[c, d]            (x : 32×512×32,  w, β : 32×512,  out : 32×512×32×512)

  one product and one sum per entry, so the two programs have to agree only on WHICH entries of x, w and β each entry of
  the result reads; no law of arithmetic is used and no input has to be finite.  The kernel computes the same thing
  over the rows n = b·512 + l of the flattened x (16384×32) and un-flattens its 16384×32×512 result; `unflatten` says
  that the row-major re-reading of the flattened form is the four-axis form.
-/
import Idealize.ShloMosaic.Lib.ValueIdx
import Idealize.ShloMosaic.Lib.Pipeline.Value

noncomputable section

namespace Cert.Embed

open Idealize.ShloMosaic Idealize.ShloMosaic.ValueIdx

variable {F : FTy → Type} [FloatOps F]

/-- x's shape. -/
abbrev Sx : Shape := ⟨3, ![32, 512, 32]⟩
/-- The shape of w and of β. -/
abbrev Sw : Shape := ⟨2, ![32, 512]⟩
/-- x with (b, l) flattened to one row axis. -/
abbrev SxRows : Shape := ⟨2, ![16384, 32]⟩
/-- The result over flattened rows. -/
abbrev SoutRows : Shape := ⟨3, ![16384, 32, 512]⟩
/-- The result's shape. -/
abbrev Sout : Shape := ⟨4, ![32, 512, 32, 512]⟩

/-- out[b, l, c, d] = x[b, l, c] · w[c, d] + β[c, d]. -/
def embed (x : Sx.Idx → F .f32) (w β : Sw.Idx → F .f32) : Sout.Idx → F .f32 := fun i =>
  FloatOps.addf (FloatOps.mulf (x (ix3 (i 0) (i 1) (i 2))) (w (ix2 (i 2) (i 3)))) (β (ix2 (i 2) (i 3)))

/-- The same over flattened rows: out[n, c, d] = x[n, c] · w[c, d] + β[c, d]. -/
def embedRows (x : SxRows.Idx → F .f32) (w β : Sw.Idx → F .f32) : SoutRows.Idx → F .f32 := fun i =>
  FloatOps.addf (FloatOps.mulf (x (ix2 (i 0) (i 1))) (w (ix2 (i 1) (i 2)))) (β (ix2 (i 1) (i 2)))

/-- Row n = b·512 + l of the flattened x is row (b, l) of x, and entry (n, c, d) of the flattened result sits at the
    row-major position of (b, l, c, d): re-reading the row form at four axes gives `embed`. -/
theorem unflatten (x : Sx.Idx → F .f32) (w β : Sw.Idx → F .f32) (h1 : Sx.ShapeCasts SxRows) (h2 : SoutRows.ShapeCasts Sout) :
    shapeCast Sout (embedRows (shapeCast SxRows x h1) w β) h2 = embed x w β := by
  funext i
  have h0 : (i 0).val < 32 := (i 0).isLt
  have h1' : (i 1).val < 512 := (i 1).isLt
  have hn : (i 0).val * 512 + (i 1).val < 16384 := by omega
  refine (shapeCast_apply _ h2 i (ix3 ⟨(i 0).val * 512 + (i 1).val, hn⟩ (i 2) (i 3)) ?_).trans ?_
  · rw [Shape.rowMajor_val_three, Shape.rowMajor_val_four]; rfl
  · show FloatOps.addf (FloatOps.mulf (shapeCast SxRows x h1 (ix2 ⟨(i 0).val * 512 + (i 1).val, hn⟩ (i 2))) (w (ix2 (i 2) (i 3))))
        (β (ix2 (i 2) (i 3))) = _
    rw [shapeCast_apply x h1 (ix2 ⟨(i 0).val * 512 + (i 1).val, hn⟩ (i 2)) (ix3 (i 0) (i 1) (i 2))
      (by rw [Shape.rowMajor_val_three, Shape.rowMajor_val_two]; rfl)]
    rfl

end Cert.Embed

end
-- ==== Proof.Blocks.lean ====
/-
  From blocks to the array.  The grid has 128 points; point t stages rows 128·t … 128·t + 127 of the flattened x (a
  128×32 block), the whole of w and of β (the same block at every point), and writes back rows 128·t … 128·t + 127 of
  the 16384×32×512 result.  So what point t writes back is block t of ONE function of the arrays as the region finds
  them — `embedRows`: out[n, c, d] = x[n, c] · w[c, d] + β[c, d] — and since row n lies in block n / 128 the 128 blocks
  cover the result array, which therefore ends holding `embedRows` of those arrays.
-/
import proofs.«101745_j20727512171029_1_alg».proof.Proof.Gen.KernelIdeal.Frame
import proofs.«101745_j20727512171029_1_alg».proof.Proof.Payload
import proofs.«101745_j20727512171029_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Embed
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at point t: x's window and the result's move along the rows with t, w's and β's stay at the one
    block there is. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Entry (r, c) of the x block at point t is row 128·t + r of the flattened x. -/
theorem xblock_apply (c : Dev nD) (t : Fin cfg0.N) (y : S128x32.Idx) (k : S16384x32.Idx)
    (hk0 : (k 0).val = 128 * t.val + (y 0).val) (hk1 : (k 1).val = (y 1).val) :
    (iblk m c 0 t : Vec F S128x32 .f32) y = (V m c main_v0 : S16384x32.Idx → Elt F .f32) k := by
  obtain ⟨e0, e1, -⟩ := block_index t
  unfold iblk
  rw [View.read_apply]
  show V m c main_v0 _ = V m c main_v0 _
  congr 1
  funext a
  apply Fin.ext
  match a with
  | ⟨0, _⟩ => show win0_0.index t (0 : Fin 2) * 128 + 1 * (y 0).val = (k 0).val; rw [e0, hk0]; omega
  | ⟨1, _⟩ => show win0_0.index t (1 : Fin 2) * 32 + 1 * (y 1).val = (k 1).val; rw [e1, hk1]; omega

/-- The w block at every point is w. -/
theorem wblock_apply (c : Dev nD) (t : Fin cfg0.N) (y k : S32x512.Idx) (hk0 : (k 0).val = (y 0).val) (hk1 : (k 1).val = (y 1).val) :
    (iblk m c 1 t : Vec F S32x512 .f32) y = (V m c main_arg1 : S32x512.Idx → Elt F .f32) k := by
  obtain ⟨-, -, e2, e3, -⟩ := block_index t
  unfold iblk
  rw [View.read_apply]
  show V m c main_arg1 _ = V m c main_arg1 _
  congr 1
  funext a
  apply Fin.ext
  match a with
  | ⟨0, _⟩ => show win0_1.index t (0 : Fin 2) * 32 + 1 * (y 0).val = (k 0).val; rw [e2, hk0]; omega
  | ⟨1, _⟩ => show win0_1.index t (1 : Fin 2) * 512 + 1 * (y 1).val = (k 1).val; rw [e3, hk1]; omega

/-- The β block at every point is β. -/
theorem bblock_apply (c : Dev nD) (t : Fin cfg0.N) (y k : S32x512.Idx) (hk0 : (k 0).val = (y 0).val) (hk1 : (k 1).val = (y 1).val) :
    (iblk m c 2 t : Vec F S32x512 .f32) y = (V m c main_arg2 : S32x512.Idx → Elt F .f32) k := by
  obtain ⟨-, -, -, -, e4, e5, -⟩ := block_index t
  unfold iblk
  rw [View.read_apply]
  show V m c main_arg2 _ = V m c main_arg2 _
  congr 1
  funext a
  apply Fin.ext
  match a with
  | ⟨0, _⟩ => show win0_2.index t (0 : Fin 2) * 32 + 1 * (y 0).val = (k 0).val; rw [e4, hk0]; omega
  | ⟨1, _⟩ => show win0_2.index t (1 : Fin 2) * 512 + 1 * (y 1).val = (k 1).val; rw [e5, hk1]; omega

/-- What the arrays hold as the region finds them, read as one function: out[n, c, d] = x[n, c] · w[c, d] + β[c, d]. -/
abbrev rowsResult (c : Dev nD) : S16384x32x512.Idx → Elt F .f32 :=
  embedRows (V m c main_v0) (V m c main_arg1) (V m c main_arg2)

/-- What point t writes back is block t of `rowsResult`. -/
theorem flushed_eq (c : Dev nD) (t : Fin cfg0.N) :
    (dats m 0 c).flushed 3 t = ((cfg0.win 3).blk t).view.read (Elt F) (rowsResult m c) := by
  show (cfg0.win 3).cut (grid0.coords t) ((dats m 0 c).after 3 t) = _
  rw [after0_3]
  unfold out0_3
  rw [View.canon_unit_zero zero3]
  simp only [View.ld_unit_zero (S := S128x32) zero2, View.ld_unit_zero (S := S32x512) zero2]
  obtain ⟨-, -, -, -, -, -, e6, e7, e8⟩ := block_index t
  funext j
  have E0 : ((((cfg0.win 3).blk t).view.emb j) 0).val = 128 * t.val + (j 0).val := by
    show win0_3.index t (0 : Fin 3) * 128 + 1 * (j 0).val = _; rw [e6]; omega
  have E1 : ((((cfg0.win 3).blk t).view.emb j) 1).val = (j 1).val := by
    show win0_3.index t (1 : Fin 3) * 32 + 1 * (j 1).val = _; rw [e7]; omega
  have E2 : ((((cfg0.win 3).blk t).view.emb j) 2).val = (j 2).val := by
    show win0_3.index t (2 : Fin 3) * 512 + 1 * (j 2).val = _; rw [e8]; omega
  refine (Payload.stored_apply (iblk m c 0 t) (iblk m c 1 t) (iblk m c 2 t) j).trans ?_
  exact congrArg₂ FloatOps.addf
    (congrArg₂ FloatOps.mulf
      (xblock_apply m c t (ix2 (j 0) (j 1)) (ix2 ((((cfg0.win 3).blk t).view.emb j) 0) ((((cfg0.win 3).blk t).view.emb j) 1)) E0 E1)
      (wblock_apply m c t (ix2 (j 1) (j 2)) (ix2 ((((cfg0.win 3).blk t).view.emb j) 1) ((((cfg0.win 3).blk t).view.emb j) 2)) E1 E2))
    (bblock_apply m c t (ix2 (j 1) (j 2)) (ix2 ((((cfg0.win 3).blk t).view.emb j) 1) ((((cfg0.win 3).blk t).view.emb j) 2)) E1 E2)

/-- An entry of the result array is in point t's block iff each coordinate is in the block's range on its axis. -/
theorem mem_block (t : Fin cfg0.N) (i : S16384x32x512.Idx) :
    i ∈ ((cfg0.win 3).blk t).view.set ↔ ∀ a : Fin 3, win0_3.index t a * S128x32x512.size a ≤ (i a).val
      ∧ (i a).val < win0_3.index t a * S128x32x512.size a + S128x32x512.size a := by
  show i ∈ ((View.whole main_v1).slice (win0_3.rect t)).set ↔ _
  rw [View.set_slice_whole, Rect.mem_set_unit]
  exact Iff.rfl

/-- Row n of the result lies in the block of point n / 128: the blocks cover the array. -/
theorem covered (i : S16384x32x512.Idx) :
    ∃ t : Fin cfg0.N, (cfg0.win 3).flush t = true ∧ i ∈ ((cfg0.win 3).blk t).view.set := by
  have h0 : (i 0).val < 16384 := (i 0).isLt
  have h1 : (i 1).val < 32 := (i 1).isLt
  have h2 : (i 2).val < 512 := (i 2).isLt
  have hN : cfg0.N = 128 := N_0
  have ht : (i 0).val / 128 < cfg0.N := by omega
  obtain ⟨-, -, -, -, -, -, e6, e7, e8⟩ := block_index ⟨(i 0).val / 128, ht⟩
  refine ⟨⟨(i 0).val / 128, ht⟩, flush0_3 _, ?_⟩
  rw [mem_block]
  intro a
  match a with
  | ⟨0, _⟩ =>
    show win0_3.index ⟨(i 0).val / 128, ht⟩ (0 : Fin 3) * 128 ≤ (i 0).val ∧ (i 0).val < win0_3.index ⟨(i 0).val / 128, ht⟩ (0 : Fin 3) * 128 + 128
    rw [e6]; show (i 0).val / 128 * 128 ≤ (i 0).val ∧ (i 0).val < (i 0).val / 128 * 128 + 128; omega
  | ⟨1, _⟩ =>
    show win0_3.index ⟨(i 0).val / 128, ht⟩ (1 : Fin 3) * 32 ≤ (i 1).val ∧ (i 1).val < win0_3.index ⟨(i 0).val / 128, ht⟩ (1 : Fin 3) * 32 + 32
    rw [e7]; omega
  | ⟨2, _⟩ =>
    show win0_3.index ⟨(i 0).val / 128, ht⟩ (2 : Fin 3) * 512 ≤ (i 2).val ∧ (i 2).val < win0_3.index ⟨(i 0).val / 128, ht⟩ (2 : Fin 3) * 512 + 512
    rw [e8]; omega

/-- The result array after the region: `rowsResult`. -/
theorem rows_final (c : Dev nD) : (dats m 0 c).arrAt 3 cfg0.N = rowsResult m c :=
  (dats m 0 c).arrAt_eq_of_cover 3 (rowsResult m c) (fun t _ => flushed_eq m c t) covered

end Cert.KernelIdeal.Blocks

end
-- ==== Proof.KernelRun.lean ====
/-
  The kernel program's run, read.  @main flattens x to 16384×32 (a row-major re-reading), runs the region, and re-reads the
  region's 16384×32×512 result at 32×512×32×512.  The region leaves `embedRows` of the flattened x, w and β in its result
  array (the blocks cover it); re-read at four axes that is `embed` of x, w and β (`Cert.Embed.unflatten`).  So every
  weakly fair execution ends with the result at `embed` of the arguments, the arguments unchanged.
-/
import proofs.«101745_j20727512171029_1_alg».proof.Proof.Blocks

noncomputable section

namespace Cert.KernelIdeal.Run

open Cert.KernelIdeal Cert.KernelIdeal.Gen Idealize.ShloMosaic Idealize.ShloMosaic.TcCoe Idealize.SL.Sem
open Idealize.ShloMosaic.ValueIdx Cert.Embed Cert.KernelIdeal.Blocks
open Idealize.ShloMosaic.Pipeline (Dat)

variable {F : FTy → Type} [FloatOps F]
variable (m : (ℓ : Loc nD τ sig) → Buf (Elt F) ℓ) (ρ : Dev nD → PrngReg)

/-- The region finds the flattened x: x re-read row-major at 16384×32. -/
theorem entry_rows (c : Dev nD) :
    (V m c main_v0 : S16384x32.Idx → Elt F .f32)
      = shapeCast S16384x32 (m ((c : Thread nD τ).loc main_arg0) : S32x512x32.Idx → Elt F .f32) shapeCasts_S32x512x32_S16384x32 := by
  show StableHlo.after hostOps0 (fun b => m (c, b)) (Proc.devRef .tc main_v0) = _
  after_results
  rfl

/-- The program's result, after the re-reading that follows the region: `embed` of the arguments. -/
theorem result_eq (c : Dev nD) :
    (Pipeline.afterTail₀ cfgs (dats m) 0 (V0 m) [hostOps1] c main_v2 : S32x512x32x512.Idx → Elt F .f32)
      = embed (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = rowsResult m c :=
    (Pipeline.withArrays_arr spec0 launch0.win.arr_inj c _ _ 3).trans (rows_final m c)
  rw [hw]
  show shapeCast S32x512x32x512 (embedRows (V m c main_v0) (V m c main_arg1) (V m c main_arg2)) shapeCasts_S16384x32x512_S32x512x32x512 = _
  rw [entry_rows, V_main_arg1, V_main_arg2]
  exact unflatten _ _ _ _ _

/-- Every weakly fair execution of the kernel program ends with the result at `embed` of the arguments and the
    arguments as launched: the frame run, its result buffer read through the lines after the region. -/
theorem run : θ_run defs (onTc (τ := τ) (main (F := F))) ⟨m, fun _ => 0, ρ⟩ fun r => ∀ c : Dev nD,
      r.2.mem ((c.tc : Thread nD τ).loc main_v2)
        = embed (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Run

end
-- ==== Proof.RefValue.lean ====
/-
  The reference read at an index.  Its eight operations are four broadcasts of x, w and β to the result's shape
  (x along a new last axis, w and β along two new leading axes), one product and one sum; read at an entry (b, l, c, d)
  the broadcasts pick x[b, l, c], w[c, d] and β[c, d], so the reference's result is `Cert.Embed.embed` of its arguments,
  at every float instance.
-/
import proofs.«101745_j20727512171029_1_alg».proof.Proof.Gen.ReferenceIdeal.Read
import proofs.«101745_j20727512171029_1_alg».proof.Proof.Spec

noncomputable section

namespace Cert.ReferenceIdeal.RefValue

open Cert.ReferenceIdeal Cert.ReferenceIdeal.Read Idealize.ShloMosaic Idealize.ShloMosaic.ValueIdx Cert.Embed

variable {F : FTy → Type} [FloatOps F]

/-- Entry (b, l, c, d) of the reference's result is x[b, l, c] · w[c, d] + β[c, d]. -/
theorem result_eq (x : Sx.Idx → F .f32) (w β : Sw.Idx → F .f32) : val_main_v7 (F := F) x w β = embed x w β := by
  funext i
  rw [val_main_v7_apply, val_main_v4_apply, val_main_v2_apply, val_main_v0_apply, val_main_v3_apply, val_main_v1_apply,
    val_main_v6_apply, val_main_v5_apply]
  -- the broadcasts' composed index maps, coordinate by coordinate
  have ex : idx_main_v0 (idx_main_v2 i) = ix3 (i 0) (i 1) (i 2) :=
    funext fun a => Fin.ext (by match a with | ⟨0, _⟩ => rfl | ⟨1, _⟩ => rfl | ⟨2, _⟩ => rfl)
  have ew : idx_main_v1 (idx_main_v3 i) = ix2 (i 2) (i 3) :=
    funext fun a => Fin.ext (by match a with | ⟨0, _⟩ => rfl | ⟨1, _⟩ => rfl)
  have eβ : idx_main_v5 (idx_main_v6 i) = ix2 (i 2) (i 3) :=
    funext fun a => Fin.ext (by match a with | ⟨0, _⟩ => rfl | ⟨1, _⟩ => rfl)
  rw [ex, ew, eβ]
  rfl

end Cert.ReferenceIdeal.RefValue

end
-- ==== Proof.lean ====
/-
  Both programs compute  out[b, l, c, d] = x[b, l, c] · w[c, d] + β[c, d]  over x : 32×512×32 and w, β : 32×512.

  The reference broadcasts x, w and β to 32×512×32×512, multiplies and adds.  The kernel flattens (b, l) to 16384 rows,
  computes the same product and sum on 128 blocks of 128 rows each, and re-reads its 16384×32×512 result at four axes.
  Entry by entry both results are ONE product followed by ONE sum of the same three input entries (`Cert.Embed.embed`), so
  they are equal at every float instance, in particular over the extended reals; no law of arithmetic is needed and the
  inputs' finiteness is not used.

  The three frames: the two kernel programs' by their generated frame runs, the reference's by its generated run with the
  result dropped.  The idealization rewrote no operation, so there is nothing to preserve.  The equivalence: the kernel
  program's run read through its blocks (Blocks, KernelRun) beside the reference's run read at an index (RefValue).
-/
import proofs.«101745_j20727512171029_1_alg».proof.Defs
import proofs.«101745_j20727512171029_1_alg».proof.Proof.Gen.Kernel
import proofs.«101745_j20727512171029_1_alg».proof.Proof.Gen.Kernel.Frame
import proofs.«101745_j20727512171029_1_alg».proof.Proof.Gen.KernelIdeal
import proofs.«101745_j20727512171029_1_alg».proof.Proof.Gen.KernelIdeal.Frame
import proofs.«101745_j20727512171029_1_alg».proof.Proof.Gen.ReferenceIdeal
import proofs.«101745_j20727512171029_1_alg».proof.Proof.Gen.ReferenceIdeal.Run
import proofs.«101745_j20727512171029_1_alg».proof.Proof.Gen.ReferenceIdeal.Read
import proofs.«101745_j20727512171029_1_alg».proof.Proof.Gen.Pre_finite_inputs
import proofs.«101745_j20727512171029_1_alg».proof.Proof.KernelRun
import proofs.«101745_j20727512171029_1_alg».proof.Proof.RefValue
import Idealize.ShloMosaic.Adequacy
import Idealize.ShloMosaic.Init

noncomputable section

namespace Cert.Proof

open Idealize.ShloMosaic Idealize.SL.Sem

/-- The word-level kernel program runs and keeps its arguments: its generated frame run. -/
theorem frame_kernel : @Cert.frame_Kernel Cert.Kernel.Gen.facts Cert.Pre_finite_inputs.Gen.facts :=
  fun m ρ _ => Cert.Kernel.Gen.frame m ρ

/-- So does the kernel program read over the extended reals. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Over the extended reals, from memories that agree on x, w and β, both programs end with the result at
    x[b, l, c] · w[c, d] + β[c, d], entry by entry. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
